-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288 : Shape := ⟨1, ![12288]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel

variable [Facts]

def fn_part1 {F : FTy → Type} [FloatOps F] (main_arg4 : FVec F S12288 .f32) (main_arg5 : FVec F S12288 .f32) (main_v13 : IVec S_ 1) (main_v16 : IVec S12288 1) : IVec S_ 1 :=
  let main_c_5 : IVec S_ 1 := constantI S_ 1 1#1
  let main_v17 : IVec S_ 1 := (fun x v => Host.reduce IntOp.andi x v reducesTo_S12288_S_d0 h_S_) main_v16 main_c_5
  let main_v18 : IVec S_ 1 := andi main_v13 main_v17
  let main_v19 : FVec F S12288 .f32 := Host.absf main_arg4
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S12288 .f32 := Host.absf main_arg5
  let main_cst_8 : FVec F S_ .f32 := constant S_ .f32 0x7F800000#32
  let main_v25 : FVec F S12288 .f32 := broadcastInDim S12288 ![] bcast_S_S12288 main_cst_8
  let main_v26 : IVec S12288 1 := cmpf .olt main_v24 main_v25
  let main_c_9 : IVec S_ 1 := constantI S_ 1 1#1
  let main_v27 : IVec S_ 1 := (fun x v => Host.reduce IntOp.andi x v reducesTo_S12288_S_d0 h_S_) main_v26 main_c_9
  let main_v28 : IVec S_ 1 := andi main_v23 main_v27
  main_v28

def fn {F : FTy → Type} [FloatOps F] (main_arg0 : FVec F S12288 .f32) (main_arg1 : FVec F S12288 .f32) (main_arg2 : FVec F S12288 .f32) (main_arg3 : FVec F S12288 .f32) (main_arg4 : FVec F S12288 .f32) (main_arg5 : FVec F S12288 .f32) : IVec S_ 1 :=
  let main_v0 : FVec F S12288 .f32 := Host.absf main_arg0
  let main_cst : FVec F S_ .f32 := constant S_ .f32 0x7F800000#32
  let main_v1 : FVec F S12288 .f32 := broadcastInDim S12288 ![] bcast_S_S12288 main_cst
  let main_v2 : IVec S12288 1 := cmpf .olt main_v0 main_v1
  let main_c : IVec S_ 1 := constantI S_ 1 1#1
  let main_v3 : IVec S_ 1 := (fun x v => Host.reduce IntOp.andi x v reducesTo_S12288_S_d0 h_S_) main_v2 main_c
  let main_v4 : FVec F S12288 .f32 := Host.absf main_arg1
  let main_cst_0 : FVec F S_ .f32 := constant S_ .f32 0x7F800000#32
  let main_v5 : FVec F S12288 .f32 := broadcastInDim S12288 ![] bcast_S_S12288 main_cst_0
  let main_v6 : IVec S12288 1 := cmpf .olt main_v4 main_v5
  let main_c_1 : IVec S_ 1 := constantI S_ 1 1#1
  let main_v7 : IVec S_ 1 := (fun x v => Host.reduce IntOp.andi x v reducesTo_S12288_S_d0 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S12288 .f32 := Host.absf main_arg3
  let main_cst_4 : FVec F S_ .f32 := constant S_ .f32 0x7F800000#32
  let main_v15 : FVec F S12288 .f32 := broadcastInDim S12288 ![] bcast_S_S12288 main_cst_4
  let main_v16 : IVec S12288 1 := cmpf .olt main_v14 main_v15
  fn_part1 (F := F) main_arg4 main_arg5 main_v13 main_v16
-- ==== Kernel.lean ====
abbrev S12288 : Shape := ⟨1, ![12288]⟩
abbrev S12288x12288 : Shape := ⟨2, ![12288, 12288]⟩
abbrev S1024 : Shape := ⟨1, ![1024]⟩
abbrev S1024x1024 : Shape := ⟨2, ![1024, 1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S12288, .f32⟩
  | .hbm, ⟨1, _⟩ => ⟨S12288, .f32⟩
  | .hbm, ⟨2, _⟩ => ⟨S12288, .f32⟩
  | .hbm, ⟨3, _⟩ => ⟨S12288, .f32⟩
  | .hbm, ⟨4, _⟩ => ⟨S12288, .f32⟩
  | .hbm, ⟨5, _⟩ => ⟨S12288, .f32⟩
  | .hbm, ⟨6, _⟩ => ⟨S12288x12288, .f32⟩
  | .local _ .vmem, ⟨0, _⟩ => ⟨S1024, .f32⟩
  | .local _ .vmem, ⟨1, _⟩ => ⟨S1024, .f32⟩
  | .local _ .vmem, ⟨2, _⟩ => ⟨S1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024x1024, .f32⟩
  | .local _ .vmem, ⟨13, _⟩ => ⟨S1024x1024, .f32⟩
  | _, _ => ⟨S12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 12], ![false, false]⟩

def k0_cond1 (i : grid0.Coords) : BitVec 1 :=
  let arg0 : BitVec 32 := BitVec.ofNat 32 (i 0).val
  let arg1 : BitVec 32 := BitVec.ofNat 32 (i 1).val
  let v0 : BitVec 1 := Scalar.cmpi .ne arg0 arg1
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let arg1 : BitVec 32 := BitVec.ofNat 32 (i 1).val
  let v3 : BitVec 1 := Scalar.cmpi .eq arg0 arg1
  let v4 : BitVec 32 := Scalar.extui v3
  let c0_i32_0 : BitVec 32 := 0#32
  let v5 : BitVec 1 := Scalar.cmpi .ne v4 c0_i32_0
  v5

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  iota_S1024x1024_d0_w32 : S1024x1024.Iotas .tc 32 [0]
  iota_S1024x1024_d1_w32 : S1024x1024.Iotas .tc 32 [1]
  shapeCasts_S1024_S1024x1 : S1024.ShapeCasts S1024x1
  shapeCasts_S1024x1_S1024x1 : S1024x1.ShapeCasts S1024x1
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S12288.size a
  hwx0_0 : ∀ i : grid0.Coords, EltTy.bits .f32 = 32 ∨ (Rect.block (s := S12288) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S12288.size a
  hwx0_1 : ∀ i : grid0.Coords, EltTy.bits .f32 = 32 ∨ (Rect.block (s := S12288) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S12288.size a
  hwx0_2 : ∀ i : grid0.Coords, EltTy.bits .f32 = 32 ∨ (Rect.block (s := S12288) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S12288.size a
  hwx0_3 : ∀ i : grid0.Coords, EltTy.bits .f32 = 32 ∨ (Rect.block (s := S12288) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S12288.size a
  hwx0_4 : ∀ i : grid0.Coords, EltTy.bits .f32 = 32 ∨ (Rect.block (s := S12288) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S12288.size a
  hwx0_5 : ∀ i : grid0.Coords, EltTy.bits .f32 = 32 ∨ (Rect.block (s := S12288) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S12288x12288.size a
  hwx0_6 : ∀ i : grid0.Coords, EltTy.bits .f32 = 32 ∨ (Rect.block (s := S12288x12288) S1024x1024.size (cc0_transform_6 i) (hinb0_6 i)).WholeWords (EltTy.packing .f32)

variable [Facts₀]

abbrev win0_0 : Pipeline.Window sig grid0 :=
  Pipeline.Window.ofSpec (Memref.whole main_arg0) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S12288 : Shape := ⟨1, ![12288]⟩
abbrev S_ : Shape := ⟨0, ![]⟩
abbrev S12288x12288 : Shape := ⟨2, ![12288, 12288]⟩
abbrev S12288x1 : Shape := ⟨2, ![12288, 1]⟩

abbrev nBuf : Space → Nat
  | .hbm => 25
  | .vmem => 0
  | .smem => 0
  | _ => 0

abbrev bufTy : (tb : Table) → Fin (tcTables nBuf tb) → BufTy
  | .hbm, ⟨0, _⟩ => ⟨S12288, .f32⟩
  | .hbm, ⟨1, _⟩ => ⟨S12288, .f32⟩
  | .hbm, ⟨2, _⟩ => ⟨S12288, .f32⟩
  | .hbm, ⟨3, _⟩ => ⟨S12288, .f32⟩
  | .hbm, ⟨4, _⟩ => ⟨S12288, .f32⟩
  | .hbm, ⟨5, _⟩ => ⟨S12288, .f32⟩
  | .hbm, ⟨6, _⟩ => ⟨S12288, .f32⟩
  | .hbm, ⟨7, _⟩ => ⟨S12288, .f32⟩
  | .hbm, ⟨8, _⟩ => ⟨S12288, .f32⟩
  | .hbm, ⟨9, _⟩ => ⟨S12288, .f32⟩
  | .hbm, ⟨10, _⟩ => ⟨S12288, .f32⟩
  | .hbm, ⟨11, _⟩ => ⟨S12288, .f32⟩
  | .hbm, ⟨12, _⟩ => ⟨S_, .f32⟩
  | .hbm, ⟨13, _⟩ => ⟨S12288, .f32⟩
  | .hbm, ⟨14, _⟩ => ⟨S12288x12288, .i32⟩
  | .hbm, ⟨15, _⟩ => ⟨S12288x12288, .i32⟩
  | .hbm, ⟨16, _⟩ => ⟨S_, .i32⟩
  | .hbm, ⟨17, _⟩ => ⟨S12288x12288, .i32⟩
  | .hbm, ⟨18, _⟩ => ⟨S12288x12288, .i32⟩
  | .hbm, ⟨19, _⟩ => ⟨S12288x12288, .i1⟩
  | .hbm, ⟨20, _⟩ => ⟨S12288x1, .f32⟩
  | .hbm, ⟨21, _⟩ => ⟨S_, .f32⟩
  | .hbm, ⟨22, _⟩ => ⟨S12288x12288, .f32⟩
  | .hbm, ⟨23, _⟩ => ⟨S12288x12288, .f32⟩
  | .hbm, ⟨24, _⟩ => ⟨S12288x12288, .f32⟩
  | _, _ => ⟨S12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_c : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_v6 : Ref sig .tc := ⟨.hbm, 24, rfl⟩

abbrev nD : Nat := 1
abbrev τ : Topo := Topo.v7x

variable {F : FTy → Type} [FloatOps F]

class Facts₀ : Prop where
  pads_S12288_S12288_000 : S12288.Pads (![0] : Fin 1 → Nat) ![0] ![0] S12288
  h_S_ : 0 < S_.numel
  bcast_S_S12288x12288 : S_.BroadcastsInDim S12288x12288 (![] : Fin 0 → Fin S12288x12288.rank)
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)

variable [Facts₀]

class Facts : Prop extends Facts₀ where

variable [Facts]
-- ==== Proof.KI.Body.lean ====
/-
  The body of the diagonal-tile kernel, for every float instance.

  The grid is 12 × 12 tiles of 1024 × 1024 entries. At a tile (i, j) with i ≠ j the body stores zeros into the
  output tile; at a tile with i = j it stores select (row = col) (d broadcast along the columns) 0, where
  d = (((0 − p) · r + s) + t · v) + w on the tile's 1024 entries of the six input vectors. At every tile exactly
  one of the two branch conditions holds (decided over the 144 points), so the output tile is written whole at
  every point and is never idle.
-/
import proofs.«169169_j64776696758819_1_alg».proof.Proof.Gen.KernelIdeal.Frame
import proofs.«169169_j64776696758819_1_alg».proof.Proof.Gen.KernelIdeal.Skeleton
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two rectangles: the whole output tile, a whole input piece -/

abbrev rO : Rect S1024x1024 := Rect.unit (s := S1024x1024) ![0, 0] S1024x1024.size inb_S1024x1024_S1024x1024_0_0
abbrev rI : Rect S1024 := Rect.unit (s := S1024) ![0] S1024.size inb_S1024_S1024_0

theorem offO : (![0, 0] : Fin 2 → ℕ) = fun _ => 0 := funext fun a => by fin_cases a <;> rfl
theorem offI : (![0] : Fin 1 → ℕ) = fun _ => 0 := funext fun a => by fin_cases a <;> rfl

/-- One store through the whole-tile rectangle covers every entry of the tile. -/
theorem coverO (w : Vec F S1024x1024 .f32) (y : S1024x1024.Idx) :
    ∃ pc ∈ ([⟨rO, w⟩] : List (View.Piece (Elt F) S1024x1024 .f32)), y ∈ pc.1.set :=
  View.cover_of_tiled [⟨rO, w⟩] S1024x1024.size (by rfl) y

/-! ## The two branch conditions over the grid -/

/-- At every point exactly one of the two conditions holds: the second is the negation of the first. -/
theorem cond2_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- The output tile is stored at every point. -/
theorem liveAt0_6 : ∀ t : Fin cfg0.N, cfg0.idle 6 (grid0.coords t) = false := by decide +kernel

/-! ## The body's triple, case by case -/

/-- Off the diagonal: the body overwrites the output tile with zeros and touches nothing else. -/
theorem sound_off (c : Dev nD) (i : grid0.Coords)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1024 .f32) (harg6 : arg6.IsWhole) (arg7 : Memref sig .tc .vmem S1024 .f32) (harg7 : arg7.IsWhole)
    (arg8 : Memref sig .tc .vmem S1024x1024 .f32) (harg8 : arg8.IsWhole)
    (h1 : k0_cond1 i = 1#1) (h2 : ¬ k0_cond2 i = 1#1) (K : PUnit → sProp 𝕄) :
    iprop((∃ d, owns (c : Thread nD τ) arg8 fullShare d)
        ∗ (owns (c : Thread nD τ) arg8 fullShare (k0_pay1 (F := F)) -∗ K ⟨⟩))
      ⊢ wp frame (wpE (defs₀ (F := F)) Variants.none c none) Set.univ
          (cc0__diag_kernel i arg2 harg2 arg3 harg3 arg4 harg4 arg5 harg5 arg6 harg6 arg7 harg7 arg8 harg8) K := by
  simp only [cc0__diag_kernel_eq_skeleton]; unfold cc0__diag_kernel_skel
  unfold owns
  iintro ⟨⟨%d8, %f8, -, H8⟩, Hk⟩
  sl_exec (disch := first | exact h1 | exact h2)
  sl_step
  iapply Hk
  iexists _; isplitr
  swap; · iexact H8
  ipureintro
  rw [View.read_writes_eq_canon _ _ _ (coverO _), View.canon_unit_zero offO]

/-- On the diagonal: the body reads the six input pieces and overwrites the output tile with the masked broadcast. -/
theorem sound_diag (c : Dev nD) (i : grid0.Coords)
    (arg2 : Memref sig .tc .vmem S1024 .f32) (harg2 : arg2.IsWhole) (arg3 : Memref sig .tc .vmem S1024 .f32) (harg3 : arg3.IsWhole)
    (arg4 : Memref sig .tc .vmem S1024 .f32) (harg4 : arg4.IsWhole) (arg5 : Memref sig .tc .vmem S1024 .f32) (harg5 : arg5.IsWhole)
    (arg6 : Memref sig .tc .vmem S1024 .f32) (harg6 : arg6.IsWhole) (arg7 : Memref sig .tc .vmem S1024 .f32) (harg7 : arg7.IsWhole)
    (arg8 : Memref sig .tc .vmem S1024x1024 .f32) (harg8 : arg8.IsWhole)
    (h1 : ¬ k0_cond1 i = 1#1) (h2 : k0_cond2 i = 1#1)
    (x0 x1 x2 x3 x4 x5 : Vec F S1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay2 x0 x2 x3 x1 x4 x5)) -∗ K ⟨⟩))
      ⊢ wp frame (wpE (defs₀ (F := F)) Variants.none c none) Set.univ
          (cc0__diag_kernel i arg2 harg2 arg3 harg3 arg4 harg4 arg5 harg5 arg6 harg6 arg7 harg7 arg8 harg8) K := by
  simp only [cc0__diag_kernel_eq_skeleton]; unfold cc0__diag_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, Hk⟩
  subst hf0 hf1 hf2 hf3 hf4 hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H8
  ipureintro
  rw [View.read_writes_eq_canon _ _ _ (coverO _), View.canon_unit_zero offO]
  simp only [View.readAt_eq_ld, View.ld_unit_zero (S := S1024) offI]

/-! ## The pipeline's proof data -/

variable (m : (ℓ : Loc nD τ sig) → Buf (Elt F) ℓ) (ρ : Dev nD → PrngReg)

/-- What the body leaves in the output tile at point t: zeros off the diagonal, the masked broadcast of the six
    input pieces' combination on it. -/
def outAt (c : Dev nD) (t : Fin cfg0.N) : Vec F S1024x1024 .f32 :=
  if k0_cond1 (grid0.coords t) = 1#1 then k0_pay1
  else k0_pay2 (iblk m c 0 t) (iblk m c 2 t) (iblk m c 3 t) (iblk m c 1 t) (iblk m c 4 t) (iblk m c 5 t)

theorem outAt_off (c : Dev nD) (t : Fin cfg0.N) (h : k0_cond1 (grid0.coords t) = 1#1) : outAt m c t = k0_pay1 := if_pos h
theorem outAt_diag (c : Dev nD) (t : Fin cfg0.N) (h : ¬ k0_cond1 (grid0.coords t) = 1#1) :
    outAt m c t = k0_pay2 (iblk m c 0 t) (iblk m c 2 t) (iblk m c 3 t) (iblk m c 1 t) (iblk m c 4 t) (iblk m c 5 t) := if_neg h

/-- The proof data of the one pipeline on core c: the arrays as the region finds them; after the body at point t
    each input's buffer at its block and the output's at outAt; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- The body at any point: the inputs' buffers hold their blocks; the first condition decides the case, the second is
    its negation; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5,
    show (dats m 0 c).leavesExact 6 t = owns (c : Thread nD τ) (st0_6 t) fullShare ((dats m 0 c).after 6 t) from by
      unfold Dat.leavesExact; rw [liveAt0_6 t],
    after0_6]
  by_cases h1 : k0_cond1 (grid0.coords t) = 1#1
  · have h2 : ¬ k0_cond2 (grid0.coords t) = 1#1 := fun h => ((cond2_iff t).mp h) h1
    rw [outAt_off m c t h1]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_off c (grid0.coords t) _ _ _ _ _ _ _ _ _ _ _ _ _ _ h1 h2 _)
    isplitl [H6]; · iexists _; iexact H6
    iintro H6
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h2 : k0_cond2 (grid0.coords t) = 1#1 := (cond2_iff t).mpr h1
    rw [outAt_diag m c t h1]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_diag c (grid0.coords t) _ _ _ _ _ _ _ _ _ _ _ _ _ _ h1 h2
      (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and leaves its six argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Proof.KI

end
-- ==== Proof.Spec.lean ====
/-
  The specification: the diagonal matrix of the combined vector.

  From six vectors p, t, r, s, v, w of 12288 extended reals the result is the 12288 × 12288 matrix whose entry
  (a, b) is ((−p a · r a + s a) + t a · v a) + w a when a = b, and 0 otherwise. Both programs compute the sums in
  this order, so no law beyond 0 − x = −x is needed, and finiteness of the inputs is never used.
-/
import Idealize.ShloMosaic.PureOps.Ideal
import Idealize.ShloMosaic.Lib.ValueIdx

noncomputable section

namespace Cert.Proof.Spec

open Idealize.ShloMosaic Idealize.ShloMosaic.ValueIdx

/-- The combination of six extended reals: ((−p · r + s) + t · v) + w. -/
def comb (p t r s v w : EReal) : EReal := ((-p * r + s) + t * v) + w

/-- The kernel spells the negation as a difference from zero. -/
theorem comb_zero_sub (p t r s v w : EReal) : (((0 - p) * r + s) + t * v) + w = comb p t r s v w := by
  unfold comb; rw [zero_sub]

/-- Entry k of a vector of 12288 entries. -/
abbrev at1 (x : (⟨1, ![12288]⟩ : Shape).Idx → EReal) (k : ℕ) (hk : k < 12288) : EReal := x (ix1 (⟨k, hk⟩ : Fin 12288))

/-- The diagonal matrix of the combined vector. -/
def G (p t r s v w : (⟨1, ![12288]⟩ : Shape).Idx → EReal) : (⟨2, ![12288, 12288]⟩ : Shape).Idx → EReal :=
  fun i => if (i 0).val = (i 1).val then
      comb (at1 p (i 0).val (idx2_lt0 i)) (at1 t (i 0).val (idx2_lt0 i)) (at1 r (i 0).val (idx2_lt0 i))
        (at1 s (i 0).val (idx2_lt0 i)) (at1 v (i 0).val (idx2_lt0 i)) (at1 w (i 0).val (idx2_lt0 i))
    else 0

/-- Off the diagonal the matrix is zero. -/
theorem G_of_ne (p t r s v w : (⟨1, ![12288]⟩ : Shape).Idx → EReal) (i : (⟨2, ![12288, 12288]⟩ : Shape).Idx)
    (h : (i 0).val ≠ (i 1).val) : G p t r s v w i = 0 := if_neg h

/-- On the diagonal it is the combination at the row. -/
theorem G_of_eq (p t r s v w : (⟨1, ![12288]⟩ : Shape).Idx → EReal) (i : (⟨2, ![12288, 12288]⟩ : Shape).Idx)
    (h : (i 0).val = (i 1).val) :
    G p t r s v w i = comb (at1 p (i 0).val (idx2_lt0 i)) (at1 t (i 0).val (idx2_lt0 i)) (at1 r (i 0).val (idx2_lt0 i))
        (at1 s (i 0).val (idx2_lt0 i)) (at1 v (i 0).val (idx2_lt0 i)) (at1 w (i 0).val (idx2_lt0 i)) := if_pos h

end Cert.Proof.Spec

end
-- ==== Proof.KI.Payload.lean ====
/-
  The kernel's two payloads read at an entry of the 1024 × 1024 tile, at the ideal instance.

  Off the diagonal the stored tile is zero everywhere. On the diagonal the stored tile at (a, b) compares the two
  iotas, which read a and b, and so holds the combination of the six input pieces at a when a = b, and 0 otherwise:
  the combined piece is laid out as a column [1024, 1] (a shape cast that keeps the row-major position) and
  broadcast along the columns.
-/
import proofs.«169169_j64776696758819_1_alg».proof.Proof.Gen.KernelIdeal.Skeleton
import proofs.«169169_j64776696758819_1_alg».proof.Proof.Spec
import Idealize.ShloMosaic.Lib.Pipeline.Value
import Idealize.ShloMosaic.Lib.StableHlo.Predicate
import Idealize.ShloMosaic.PureOps.Ideal.Laws

noncomputable section

namespace Cert.Proof.KI

open Cert.KernelIdeal Cert.KernelIdeal.Gen Cert.Proof.Spec
open Idealize.ShloMosaic Idealize.ShloMosaic.ValueIdx

/-- Entry k of a piece of 1024 entries. -/
abbrev pc (x : Vec Ideal S1024 .f32) (k : ℕ) (hk : k < 1024) : EReal := x (ix1 (⟨k, hk⟩ : Fin 1024))

/-- Off the diagonal the stored tile is zero. -/
theorem pay1_apply (j : S1024x1024.Idx) : k0_pay1 (F := Ideal) j = 0 := by
  unfold k0_pay1
  simp only [broadcast_apply, Ideal.ofBits_def, Ideal.ofBits_zero_f32]

/-- Two row numbers below 1024 are equal as 32-bit words exactly when they are equal. -/
theorem ofNat_eq_iff (a b : ℕ) (ha : a < 1024) (hb : b < 1024) : BitVec.ofNat 32 a = BitVec.ofNat 32 b ↔ a = b := by
  constructor
  · intro h
    have := congrArg BitVec.toNat h
    simp only [BitVec.toNat_ofNat] at this
    omega
  · rintro rfl; rfl

/-- A piece laid out as a column [1024, 1] and broadcast along the columns reads, at (a, b), the piece at a. -/
theorem col_apply (D : Vec Ideal S1024 .f32) (h1 : S1024.ShapeCasts S1024x1) (h2 : S1024x1.ShapeCasts S1024x1)
    (h3 : S1024x1.Broadcasts S1024x1024) (j : S1024x1024.Idx) :
    broadcastTo S1024x1024 (shapeCast S1024x1 (shapeCast S1024x1 D h1) h2) h3 j
      = D (ix1 (⟨(j 0).val, (idx2_lt0 j)⟩ : Fin 1024)) := by
  rw [broadcastTo_apply _ h3 j (ix2 (⟨(j 0).val, (idx2_lt0 j)⟩ : Fin 1024) (0 : Fin 1))
      (fun a => by match a with | ⟨0, _⟩ => rfl | ⟨1, _⟩ => rfl),
    shapeCast_self,
    shapeCast_apply D h1 _ (ix1 (⟨(j 0).val, (idx2_lt0 j)⟩ : Fin 1024))
      (by rw [Shape.rowMajor_val_one, Shape.rowMajor_val_two]; show (j 0).val = (j 0).val * 1 + 0; omega)]

/-- On the diagonal the stored tile at (a, b) is the combination at a when a = b, and 0 otherwise. -/
theorem pay2_apply (x0 x2 x3 x1 x4 x5 : Vec Ideal S1024 .f32) (j : S1024x1024.Idx) :
    k0_pay2 (F := Ideal) x0 x2 x3 x1 x4 x5 j
      = if (j 0).val = (j 1).val then
          comb (pc x0 (j 0).val (idx2_lt0 j)) (pc x1 (j 0).val (idx2_lt0 j)) (pc x2 (j 0).val (idx2_lt0 j))
            (pc x3 (j 0).val (idx2_lt0 j)) (pc x4 (j 0).val (idx2_lt0 j)) (pc x5 (j 0).val (idx2_lt0 j))
        else 0 := by
  unfold k0_pay2
  simp only [select_apply]
  rw [col_apply]
  have hc : cmpi CmpIPredicate.eq (iota Kind.tc S1024x1024 32 [0] iota_S1024x1024_d0_w32)
        (iota Kind.tc S1024x1024 32 [1] iota_S1024x1024_d1_w32) j
      = IntOp.cmpi .eq (BitVec.ofNat 32 (j 0).val) (BitVec.ofNat 32 (j 1).val) := by
    show IntOp.cmpi .eq (iota Kind.tc S1024x1024 32 [0] iota_S1024x1024_d0_w32 j) (iota Kind.tc S1024x1024 32 [1] iota_S1024x1024_d1_w32 j) = _
    rw [iota_single_apply, iota_single_apply]
  rw [hc]
  simp only [addf_apply, mulf_apply, subf_apply, broadcast_apply, Ideal.ofBits_def, Ideal.ofBits_zero_f32, comb_zero_sub]
  unfold Scalar.select
  by_cases hab : (j 0).val = (j 1).val
  · have hb : IntOp.cmpi .eq (BitVec.ofNat 32 (j 0).val) (BitVec.ofNat 32 (j 1).val) = 1 :=
      StableHlo.Predicate.cmpi_eq_iff.mpr ((ofNat_eq_iff _ _ (idx2_lt0 j) (idx2_lt1 j)).mpr hab)
    rw [if_pos hab, if_pos hb]
  · have hb : ¬ IntOp.cmpi .eq (BitVec.ofNat 32 (j 0).val) (BitVec.ofNat 32 (j 1).val) = 1 :=
      fun h => hab ((ofNat_eq_iff _ _ (idx2_lt0 j) (idx2_lt1 j)).mp (StableHlo.Predicate.cmpi_eq_iff.mp h))
    rw [if_neg hab, if_neg hb]

end Cert.Proof.KI

end
-- ==== Proof.KI.Value.lean ====
/-
  The kernel's result array at the ideal instance is the diagonal matrix of the specification.

  Point t of the 12 × 12 grid writes back the tile (I, J) of the output, I and J its two block indices, and reads
  piece I of each input vector. Off the diagonal (I ≠ J) the tile is zero, and so is the matrix there, since
  I · 1024 + a ≠ J · 1024 + b for a, b < 1024. On the diagonal (I = J) the tile at (a, b) holds the combination of the
  pieces at a when a = b, which is the matrix at (I · 1024 + a, I · 1024 + b). The 144 tiles cover the array: entry
  (x, y) lies in the tile (x / 1024, y / 1024).
-/
import proofs.«169169_j64776696758819_1_alg».proof.Proof.KI.Body
import proofs.«169169_j64776696758819_1_alg».proof.Proof.KI.Payload

set_option maxRecDepth 16384

noncomputable section

namespace Cert.Proof.KI

open Cert.KernelIdeal Cert.KernelIdeal.Gen Cert.Proof.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps over the grid -/

/-- Every input window's block index is the output's row block index; the first branch condition holds exactly off the
    diagonal; both block indices of the output are below 12. -/
theorem idx_facts : ∀ t : Fin cfg0.N,
    win0_0.index t (0 : Fin 1) = win0_6.index t (0 : Fin 2)
    ∧ win0_1.index t (0 : Fin 1) = win0_6.index t (0 : Fin 2)
    ∧ win0_2.index t (0 : Fin 1) = win0_6.index t (0 : Fin 2)
    ∧ win0_3.index t (0 : Fin 1) = win0_6.index t (0 : Fin 2)
    ∧ win0_4.index t (0 : Fin 1) = win0_6.index t (0 : Fin 2)
    ∧ win0_5.index t (0 : Fin 1) = win0_6.index t (0 : Fin 2)
    ∧ (k0_cond1 (grid0.coords t) = 1#1 ↔ win0_6.index t (0 : Fin 2) ≠ win0_6.index t (1 : Fin 2))
    ∧ win0_6.index t (0 : Fin 2) ≤ 11 ∧ win0_6.index t (1 : Fin 2) ≤ 11 :=
  (by decide +kernel : ∀ t : Fin grid0.N, _)

/-- Every tile of the output is some point's. -/
theorem idx_onto : ∀ (q0 q1 : Fin 12), ∃ t : Fin cfg0.N, win0_6.index t = ![q0.val, q1.val] :=
  (by decide +kernel : ∀ (q0 q1 : Fin 12), ∃ t : Fin grid0.N, win0_6.index t = ![q0.val, q1.val])

/-! ## An input block's entry is the input vector's entry at the block's offset -/

theorem blk0_apply (c : Dev nD) (t : Fin cfg0.N) (k : ℕ) (hk : k < 1024) (K : ℕ) (hK : K < 12288)
    (h : K = win0_0.index t (0 : Fin 1) * 1024 + k) :
    pc (iblk m c 0 t) k hk = at1 (V m c main_arg0) K hK := by
  show V m c main_arg0 (((cfg0.win 0).blk t).view.emb (ix1 (⟨k, hk⟩ : Fin 1024))) = V m c main_arg0 (ix1 (⟨K, hK⟩ : Fin 12288))
  refine congrArg _ (funext fun a => Fin.ext ?_)
  match a with
  | ⟨0, _⟩ => show win0_0.index t (0 : Fin 1) * 1024 + 1 * k = K; omega
theorem blk1_apply (c : Dev nD) (t : Fin cfg0.N) (k : ℕ) (hk : k < 1024) (K : ℕ) (hK : K < 12288)
    (h : K = win0_1.index t (0 : Fin 1) * 1024 + k) :
    pc (iblk m c 1 t) k hk = at1 (V m c main_arg1) K hK := by
  show V m c main_arg1 (((cfg0.win 1).blk t).view.emb (ix1 (⟨k, hk⟩ : Fin 1024))) = V m c main_arg1 (ix1 (⟨K, hK⟩ : Fin 12288))
  refine congrArg _ (funext fun a => Fin.ext ?_)
  match a with
  | ⟨0, _⟩ => show win0_1.index t (0 : Fin 1) * 1024 + 1 * k = K; omega
theorem blk2_apply (c : Dev nD) (t : Fin cfg0.N) (k : ℕ) (hk : k < 1024) (K : ℕ) (hK : K < 12288)
    (h : K = win0_2.index t (0 : Fin 1) * 1024 + k) :
    pc (iblk m c 2 t) k hk = at1 (V m c main_arg2) K hK := by
  show V m c main_arg2 (((cfg0.win 2).blk t).view.emb (ix1 (⟨k, hk⟩ : Fin 1024))) = V m c main_arg2 (ix1 (⟨K, hK⟩ : Fin 12288))
  refine congrArg _ (funext fun a => Fin.ext ?_)
  match a with
  | ⟨0, _⟩ => show win0_2.index t (0 : Fin 1) * 1024 + 1 * k = K; omega
theorem blk3_apply (c : Dev nD) (t : Fin cfg0.N) (k : ℕ) (hk : k < 1024) (K : ℕ) (hK : K < 12288)
    (h : K = win0_3.index t (0 : Fin 1) * 1024 + k) :
    pc (iblk m c 3 t) k hk = at1 (V m c main_arg3) K hK := by
  show V m c main_arg3 (((cfg0.win 3).blk t).view.emb (ix1 (⟨k, hk⟩ : Fin 1024))) = V m c main_arg3 (ix1 (⟨K, hK⟩ : Fin 12288))
  refine congrArg _ (funext fun a => Fin.ext ?_)
  match a with
  | ⟨0, _⟩ => show win0_3.index t (0 : Fin 1) * 1024 + 1 * k = K; omega
theorem blk4_apply (c : Dev nD) (t : Fin cfg0.N) (k : ℕ) (hk : k < 1024) (K : ℕ) (hK : K < 12288)
    (h : K = win0_4.index t (0 : Fin 1) * 1024 + k) :
    pc (iblk m c 4 t) k hk = at1 (V m c main_arg4) K hK := by
  show V m c main_arg4 (((cfg0.win 4).blk t).view.emb (ix1 (⟨k, hk⟩ : Fin 1024))) = V m c main_arg4 (ix1 (⟨K, hK⟩ : Fin 12288))
  refine congrArg _ (funext fun a => Fin.ext ?_)
  match a with
  | ⟨0, _⟩ => show win0_4.index t (0 : Fin 1) * 1024 + 1 * k = K; omega
theorem blk5_apply (c : Dev nD) (t : Fin cfg0.N) (k : ℕ) (hk : k < 1024) (K : ℕ) (hK : K < 12288)
    (h : K = win0_5.index t (0 : Fin 1) * 1024 + k) :
    pc (iblk m c 5 t) k hk = at1 (V m c main_arg5) K hK := by
  show V m c main_arg5 (((cfg0.win 5).blk t).view.emb (ix1 (⟨k, hk⟩ : Fin 1024))) = V m c main_arg5 (ix1 (⟨K, hK⟩ : Fin 12288))
  refine congrArg _ (funext fun a => Fin.ext ?_)
  match a with
  | ⟨0, _⟩ => show win0_5.index t (0 : Fin 1) * 1024 + 1 * k = K; omega

/-! ## What a point writes back -/

/-- What point t writes back is tile t of the diagonal matrix of the argument arrays. -/
theorem flushed6_eq (c : Dev nD) (t : Fin cfg0.N) :
    (dats m 0 c).flushed 6 t = ((cfg0.win 6).blk t).view.read (Elt Ideal)
      (G (V m c main_arg0) (V m c main_arg1) (V m c main_arg2) (V m c main_arg3) (V m c main_arg4) (V m c main_arg5)) := by
  show (cfg0.win 6).cut (grid0.coords t) ((dats m 0 c).after 6 t) = _
  rw [after0_6]
  obtain ⟨e0, e1, e2, e3, e4, e5, ec, b0, b1⟩ := idx_facts t
  by_cases h1 : k0_cond1 (grid0.coords t) = 1#1
  · have hne := ec.mp h1
    rw [outAt_off m c t h1]
    funext j
    have hj0 : (j 0).val < 1024 := (j 0).isLt
    have hj1 : (j 1).val < 1024 := (j 1).isLt
    show k0_pay1 (F := Ideal) j = G (V m c main_arg0) (V m c main_arg1) (V m c main_arg2) (V m c main_arg3) (V m c main_arg4) (V m c main_arg5)
      (((cfg0.win 6).blk t).view.emb j)
    refine (pay1_apply j).trans (G_of_ne _ _ _ _ _ _ _ ?_).symm
    show win0_6.index t (0 : Fin 2) * 1024 + 1 * (j 0).val ≠ win0_6.index t (1 : Fin 2) * 1024 + 1 * (j 1).val
    omega
  · have heq : win0_6.index t (0 : Fin 2) = win0_6.index t (1 : Fin 2) := by
      by_contra hne; exact h1 (ec.mpr hne)
    rw [outAt_diag m c t h1]
    funext j
    have hj0 : (j 0).val < 1024 := (j 0).isLt
    have hj1 : (j 1).val < 1024 := (j 1).isLt
    show k0_pay2 (F := Ideal) (iblk m c 0 t) (iblk m c 2 t) (iblk m c 3 t) (iblk m c 1 t) (iblk m c 4 t) (iblk m c 5 t) j
      = G (V m c main_arg0) (V m c main_arg1) (V m c main_arg2) (V m c main_arg3) (V m c main_arg4) (V m c main_arg5)
        (((cfg0.win 6).blk t).view.emb j)
    refine (pay2_apply (iblk m c 0 t) (iblk m c 2 t) (iblk m c 3 t) (iblk m c 1 t) (iblk m c 4 t) (iblk m c 5 t) j).trans ?_
    by_cases hab : (j 0).val = (j 1).val
    · rw [if_pos hab]
      have hrc : ((((cfg0.win 6).blk t).view.emb j) 0).val = ((((cfg0.win 6).blk t).view.emb j) 1).val := by
        show win0_6.index t (0 : Fin 2) * 1024 + 1 * (j 0).val = win0_6.index t (1 : Fin 2) * 1024 + 1 * (j 1).val
        omega
      refine Eq.trans ?_ (G_of_eq _ _ _ _ _ _ _ hrc).symm
      have hK : ((((cfg0.win 6).blk t).view.emb j) 0).val = win0_6.index t (0 : Fin 2) * 1024 + (j 0).val := by
        show win0_6.index t (0 : Fin 2) * 1024 + 1 * (j 0).val = _
        omega
      rw [blk0_apply m c t _ _ _ (idx2_lt0 _) (by rw [hK, e0]), blk1_apply m c t _ _ _ (idx2_lt0 _) (by rw [hK, e1]),
        blk2_apply m c t _ _ _ (idx2_lt0 _) (by rw [hK, e2]), blk3_apply m c t _ _ _ (idx2_lt0 _) (by rw [hK, e3]),
        blk4_apply m c t _ _ _ (idx2_lt0 _) (by rw [hK, e4]), blk5_apply m c t _ _ _ (idx2_lt0 _) (by rw [hK, e5])]
    · rw [if_neg hab]
      refine (G_of_ne _ _ _ _ _ _ _ ?_).symm
      show win0_6.index t (0 : Fin 2) * 1024 + 1 * (j 0).val ≠ win0_6.index t (1 : Fin 2) * 1024 + 1 * (j 1).val
      omega

/-! ## The tiles cover the array -/

/-- An entry of the array is in point t's tile iff each coordinate is in the tile's range on its axis. -/
theorem mem_blk6 (t : Fin cfg0.N) (i : S12288x12288.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v0).slice (win0_6.rect t)).set ↔ _
  rw [View.set_slice_whole, Rect.mem_set_unit]
  exact Iff.rfl

/-- Entry (x, y) lies in the tile (x / 1024, y / 1024). -/
theorem cover6 (i : S12288x12288.Idx) :
    ∃ t : Fin cfg0.N, (cfg0.win 6).flush t = true ∧ i ∈ ((cfg0.win 6).blk t).view.set := by
  have hi0 : (i 0).val < 12288 := idx2_lt0 i
  have hi1 : (i 1).val < 12288 := idx2_lt1 i
  obtain ⟨t, ht⟩ := idx_onto ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- The output array after the run is the diagonal matrix of the argument arrays. -/
theorem final6 (c : Dev nD) : (dats m 0 c).arrAt 6 cfg0.N
    = G (V m c main_arg0) (V m c main_arg1) (V m c main_arg2) (V m c main_arg3) (V m c main_arg4) (V m c main_arg5) :=
  (dats m 0 c).arrAt_eq_of_cover 6 _ (fun t _ => flushed6_eq m c t) cover6

/-! ## The run, read -/

/-- Every weakly fair execution of the idealized kernel's program terminates with the result array at the diagonal
    matrix of the arguments, and the arguments unchanged. -/
theorem run : θ_run defs (onTc (τ := τ) (main (F := Ideal))) ⟨m, fun _ => 0, ρ⟩ fun r => ∀ c : Dev nD,
      r.2.mem ((c.tc : Thread nD τ).loc main_v0) = G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5))⟩)
    (run_main m ρ)

end Cert.Proof.KI

end
-- ==== Proof.RefRun.lean ====
/-
  The reference program's run, read back: its 19 host operations in order, the two outlined functions
  (the diagonal embedding, and the select inside it) listed at their call sites over the calls' own buffers.
  The result is diagOf (dvec p t r s v w): the vector d = ((−p · r + s) + t · v) + w, padded by nothing,
  broadcast along the columns and kept where the row index plus zero equals the column index, zero elsewhere.
-/
import proofs.«169169_j64776696758819_1_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The operations of the program, in order, the calls unfolded. -/
abbrev ops : List (HloOp τ sig (Elt F)) :=
  [ unary main_arg0 main_v0 (Host.negf : (⟨S12288, .f32⟩ : BufTy).Contents (Elt F) → (⟨S12288, .f32⟩ : BufTy).Contents (Elt F)),
    binary main_v0 main_arg2 main_v1 (mulf : (⟨S12288, .f32⟩ : BufTy).Contents (Elt F) → (⟨S12288, .f32⟩ : BufTy).Contents (Elt F) → (⟨S12288, .f32⟩ : BufTy).Contents (Elt F)),
    binary main_v1 main_arg3 main_v2 (addf : (⟨S12288, .f32⟩ : BufTy).Contents (Elt F) → (⟨S12288, .f32⟩ : BufTy).Contents (Elt F) → (⟨S12288, .f32⟩ : BufTy).Contents (Elt F)),
    binary main_arg1 main_arg4 main_v3 (mulf : (⟨S12288, .f32⟩ : BufTy).Contents (Elt F) → (⟨S12288, .f32⟩ : BufTy).Contents (Elt F) → (⟨S12288, .f32⟩ : BufTy).Contents (Elt F)),
    binary main_v2 main_v3 main_v4 (addf : (⟨S12288, .f32⟩ : BufTy).Contents (Elt F) → (⟨S12288, .f32⟩ : BufTy).Contents (Elt F) → (⟨S12288, .f32⟩ : BufTy).Contents (Elt F)),
    binary main_v4 main_arg5 main_v5 (addf : (⟨S12288, .f32⟩ : BufTy).Contents (Elt F) → (⟨S12288, .f32⟩ : BufTy).Contents (Elt F) → (⟨S12288, .f32⟩ : BufTy).Contents (Elt F)),
    TRef.nullary main_call0.cst (constant S_ .f32 0x00000000#32),
    TRef.binary (.of main_v5) main_call0.cst main_call0.v0 (fun x v => pad S12288 ![0] ![0] ![0] x v pads_S12288_S12288_000 h_S_),
    TRef.nullary main_call0.v1 (iotaInDim S12288x12288 32 0),
    TRef.nullary main_call0.v2 (iotaInDim S12288x12288 32 1),
    TRef.nullary main_call0.c (constantI S_ 32 0#32),
    TRef.unary main_call0.c main_call0.v3 (broadcastInDim S12288x12288 ![] bcast_S_S12288x12288),
    TRef.binary main_call0.v1 main_call0.v3 main_call0.v4 addi,
    TRef.binary main_call0.v4 main_call0.v2 main_call0.v5 (cmpi .eq),
    TRef.unary main_call0.v0 main_call0.v6 (broadcastInDim S12288x1 ![0] bcast_S12288_S12288x1_0),
    TRef.nullary main_call0.cst_0 (constant S_ .f32 0x00000000#32),
    TRef.unary main_call0.v6 main_call0.call0.v0 (broadcastInDim S12288x12288 ![0, 1] bcast_S12288x1_S12288x12288_0_1),
    TRef.unary main_call0.cst_0 main_call0.call0.v1 (broadcastInDim S12288x12288 ![] bcast_S_S12288x12288),
    TRef.ternary main_call0.v5 main_call0.call0.v0 main_call0.call0.v1 main_call0.call0.v2 select ]

/-- The program is that straight line: the two functions' bodies unfolded at their calls. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., binary_bufs_sub .., binary_bufs_sub .., binary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub ..⟩

/-- The combined vector: ((−p · r + s) + t · v) + w, entry by entry. -/
def dvec (p t r s v w : (⟨S12288, .f32⟩ : BufTy).Contents (Elt F)) : (⟨S12288, .f32⟩ : BufTy).Contents (Elt F) :=
  addf (addf (addf (mulf (Host.negf p) r) s) (mulf t v)) w

/-- The diagonal embedding as the program computes it: the vector padded by nothing, laid out as a column, broadcast
    along the columns, and kept where (row index + 0) = column index; the zero constant elsewhere. -/
def diagOf (d : (⟨S12288, .f32⟩ : BufTy).Contents (Elt F)) : (⟨S12288x12288, .f32⟩ : BufTy).Contents (Elt F) :=
  select (cmpi .eq (addi (iotaInDim S12288x12288 32 0) (broadcastInDim S12288x12288 ![] bcast_S_S12288x12288 (constantI S_ 32 0#32))) (iotaInDim S12288x12288 32 1))
    (broadcastInDim S12288x12288 ![0, 1] bcast_S12288x1_S12288x12288_0_1
      (broadcastInDim S12288x1 ![0] bcast_S12288_S12288x1_0 (pad S12288 ![0] ![0] ![0] d (constant S_ .f32 0x00000000#32) pads_S12288_S12288_000 h_S_)))
    (broadcastInDim S12288x12288 ![] bcast_S_S12288x12288 (constant S_ .f32 0x00000000#32))

/-- From any memory with zero counters every weakly fair execution of the program terminates with the result at the
    diagonal embedding of the combined vector of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = diagOf (dvec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v6).trans (by after_results; rfl),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.Proof.Ref

end
-- ==== Proof.RefValue.lean ====
/-
  The reference's result is the diagonal matrix of the specification, at the ideal instance.

  At (a, b) the mask compares (row iota + 0) with the column iota, which is a = b for indices below 12288 read as
  32-bit words. The kept value is the combined vector, padded by nothing, laid out as a column and broadcast along
  the columns: the combined vector at a. Elsewhere the broadcast zero constant.
-/
import proofs.«169169_j64776696758819_1_alg».proof.Proof.RefRun
import proofs.«169169_j64776696758819_1_alg».proof.Proof.Spec
import Idealize.ShloMosaic.Lib.StableHlo.Predicate
import Idealize.ShloMosaic.Lib.KernelVsHost
import Idealize.ShloMosaic.Lib.SortFacts
import Idealize.ShloMosaic.Lib.ValueLayout
import Idealize.ShloMosaic.PureOps.Ideal.Laws

noncomputable section

namespace Cert.Proof.Ref

open Cert.ReferenceIdeal Cert.ReferenceIdeal.Gen Cert.Proof.Spec
open Idealize.ShloMosaic Idealize.ShloMosaic.ValueIdx Idealize.ShloMosaic.StableHlo.Predicate

/-- A row number plus the zero word equals a column number, as 32-bit words, exactly when the numbers are equal. -/
theorem addi_zero_eq_iff (a b : ℕ) (ha : a < 12288) (hb : b < 12288) :
    IntOp.addi (BitVec.ofNat 32 a) (0#32) = BitVec.ofNat 32 b ↔ a = b := by
  unfold IntOp.addi
  rw [BitVec.add_zero]
  constructor
  · intro h
    have := congrArg BitVec.toNat h
    simp only [BitVec.toNat_ofNat] at this
    omega
  · rintro rfl; rfl

/-- The combined vector at an entry is the combination of the six entries. -/
theorem dvec_apply (p t r s v w : (⟨S12288, .f32⟩ : BufTy).Contents (Elt Ideal)) (k : S12288.Idx) :
    dvec (F := Ideal) p t r s v w k = comb (p k) (t k) (r k) (s k) (v k) (w k) := rfl

/-- The one index of a vector at position a, spelt two ways. -/
theorem ofFin_eq_ix1 (a : Fin 12288) : (Shape.Idx.ofFin a : (⟨1, ![12288]⟩ : Shape).Idx) = ix1 a := by
  funext c
  have hc : c = 0 := Subsingleton.elim _ _
  subst hc
  exact Fin.ext rfl

/-- A vector padded by nothing, laid out as a column and broadcast along the columns reads, at (a, b), the vector at a. -/
theorem kept_apply {α : Type} (D : S12288.Idx → α) {u : Shape} (z : u.Idx → α) (hp : S12288.Pads (![0] : Fin 1 → Nat) ![0] ![0] S12288)
    (hu : 0 < u.numel) (h1 : S12288.BroadcastsInDim S12288x1 ![0]) (h2 : S12288x1.BroadcastsInDim S12288x12288 ![0, 1])
    (a b : Fin 12288) :
    broadcastInDim S12288x12288 ![0, 1] h2 (broadcastInDim S12288x1 ![0] h1 (pad S12288 ![0] ![0] ![0] D z hp hu)) (ij a b)
      = D (ix1 a) := by
  rw [bcast_of_col, bcast_col1,
    pad_apply_of_inside _ _ _ D z hp hu _ (Shape.Idx.ofFin a) (fun c => by
      have hc : c = 0 := Subsingleton.elim _ _
      subst hc
      show a.val = 0 + a.val * (0 + 1)
      omega),
    ofFin_eq_ix1]

/-- The reference's result is the specification's diagonal matrix. -/
theorem diagOf_eq (p t r s v w : (⟨S12288, .f32⟩ : BufTy).Contents (Elt Ideal)) :
    diagOf (F := Ideal) (dvec p t r s v w) = G p t r s v w := by
  funext i
  obtain ⟨a, b, rfl⟩ : ∃ a b : Fin 12288, i = ij a b := ⟨i 0, i 1, (ij_eta i).symm⟩
  unfold diagOf
  rw [select_apply, kept_apply, dvec_apply, bcast_scalar _ h_S_, constant_apply, Ideal.ofBits_zero_f32]
  have hc : cmpi CmpIPredicate.eq
        (addi (iotaInDim S12288x12288 32 0) (broadcastInDim S12288x12288 ![] bcast_S_S12288x12288 (constantI S_ 32 0#32)))
        (iotaInDim S12288x12288 32 1) (ij a b)
      = IntOp.cmpi .eq (IntOp.addi (BitVec.ofNat 32 a.val) (0#32)) (BitVec.ofNat 32 b.val) := by
    show IntOp.cmpi .eq (IntOp.addi (iotaInDim S12288x12288 32 0 (ij a b))
        (broadcastInDim S12288x12288 ![] bcast_S_S12288x12288 (constantI S_ 32 0#32) (ij a b))) (iotaInDim S12288x12288 32 1 (ij a b)) = _
    rw [bcast_scalar _ h_S_]
    rfl
  rw [hc]
  unfold Scalar.select G
  show _ = if a.val = b.val then comb (p (ix1 a)) (t (ix1 a)) (r (ix1 a)) (s (ix1 a)) (v (ix1 a)) (w (ix1 a)) else 0
  by_cases hab : a.val = b.val
  · have hb : IntOp.cmpi .eq (IntOp.addi (BitVec.ofNat 32 a.val) (0#32)) (BitVec.ofNat 32 b.val) = 1 :=
      cmpi_eq_iff.mpr ((addi_zero_eq_iff _ _ a.isLt b.isLt).mpr hab)
    rw [if_pos hab, if_pos hb]
  · have hb : ¬ IntOp.cmpi .eq (IntOp.addi (BitVec.ofNat 32 a.val) (0#32)) (BitVec.ofNat 32 b.val) = 1 :=
      fun h => hab ((addi_zero_eq_iff _ _ a.isLt b.isLt).mp (cmpi_eq_iff.mp h))
    rw [if_neg hab, if_neg hb]

end Cert.Proof.Ref

end
-- ==== Proof.lean ====
/-
  The certificate of the diagonal-tile kernel against the jnp reference diag(−p · r + s + t · v + w).

  Both programs compute the combined vector d = ((−p · r + s) + t · v) + w with the sums in the same order (the kernel
  spells −p as 0 − p, equal on the extended reals) and place it on the diagonal of a 12288 × 12288 matrix of zeros: the
  reference by a mask (row iota + 0 = column iota) over the vector broadcast along the columns, the kernel tile by tile
  on a 12 × 12 grid of 1024 × 1024 tiles — zeros off the diagonal, the same mask on the diagonal tiles. The two results
  are one function of the arguments (Spec.lean's G), entry by entry; no algebraic law beyond 0 − x = −x is used, so the
  finiteness of the inputs is never opened.

  The frames: the kernel's body is run once per branch case (K/Body.lean at the word level, KI/Body.lean idealized; exactly
  one of the two conditions holds at each of the 144 points), and the reference's 19 host operations are read back in
  RefRun.lean. The ideal pass rewrote nothing, so the idealization claim is trivial.
-/
import proofs.«169169_j64776696758819_1_alg».proof.Defs
import proofs.«169169_j64776696758819_1_alg».proof.Proof.Gen.Kernel
import proofs.«169169_j64776696758819_1_alg».proof.Proof.Gen.KernelIdeal
import proofs.«169169_j64776696758819_1_alg».proof.Proof.Gen.ReferenceIdeal
import proofs.«169169_j64776696758819_1_alg».proof.Proof.Gen.Pre_finite_inputs
import proofs.«169169_j64776696758819_1_alg».proof.Proof.K.Body
import proofs.«169169_j64776696758819_1_alg».proof.Proof.KI.Value
import proofs.«169169_j64776696758819_1_alg».proof.Proof.RefValue

noncomputable section

namespace Cert.Proof

open Idealize.ShloMosaic Idealize.SL.Sem

/-- The word-level kernel runs to the end and leaves its arguments unchanged. -/
theorem frame_k : Cert.frame_Kernel := fun m ρ _ => Cert.Proof.K.frame (F := Bits) m ρ

/-- So does the idealized kernel. -/
theorem frame_ki : Cert.frame_KernelIdeal := fun m ρ _ => Cert.Proof.KI.frame (F := Ideal) m ρ

/-- So does the reference: its run with the result dropped. -/
theorem frame_ri : Cert.frame_ReferenceIdeal := fun m ρ _ =>
  (θ_run Cert.ReferenceIdeal.defs _ _).mono (fun _ h c => (h c).2) (Cert.Proof.Ref.run (F := Ideal) m ρ)

/-- The ideal pass rewrote no operation. -/
theorem preserves : Cert.preserves_Kernel_KernelIdeal := trivial

/-- At the ideal instance the kernel's result array and the reference's are the diagonal matrix of the combined
    vector of arguments that agree. -/
theorem algebraic : Cert.algebraic_KernelIdeal_ReferenceIdeal := by
  intro m ρ m' ρ' _ hagree
  refine ⟨_, Cert.Proof.KI.run m ρ, ?_⟩
  refine (θ_run Cert.ReferenceIdeal.defs _ _).mono (fun _ h c => ⟨(h c).1.trans ?_, (h c).2⟩)
    (Cert.Proof.Ref.run (F := Ideal) m' ρ')
  rw [Cert.Proof.Ref.diagOf_eq, (hagree c).1, (hagree c).2.1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
